-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 63
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .bf16⟩
  | .hbm, ⟨60, _⟩ => ⟨S128x128, .bf16⟩
  | .hbm, ⟨61, _⟩ => ⟨S1x128, .f32⟩
  | .hbm, ⟨62, _⟩ => ⟨S100000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v39) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .i1⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostPrefix.lean ====
/-
  What the dense layer's three operands hold when the kernel is launched.

  Before the launch the program aggregates the neighbours' features exactly as the reference does (degrees by a
  scatter-add of the edge values, their inverse square roots gathered along rows and columns, the scaled neighbour rows
  scatter-added to their destination rows), then narrows the aggregate and the weights to bf16 and views the bias as a
  1 × 128 matrix. The aggregation is the same composition of the same operations as the reference's, whatever the
  arithmetic, so the three operands are the reference's own aggregate and the weight matrix, each narrowed, and the
  bias as a row.
-/
import proofs.«142650_j36275293782355_1_alg».proof.Proof.Gen.KernelIdeal.Frame
import proofs.«142650_j36275293782355_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.TcCoe Idealize.ShloMosaic.ValueIdx Idealize.ShloMosaic.StableHlo Idealize.SL.Sem

section AnyArithmetic

variable {F : FTy → Type} [FloatOps F]
variable (m : (ℓ : Loc nD τ sig) → Buf (Elt F) ℓ)

/-- The aggregated features, as a function of the node features, the edges' rows and columns and the edge values: the
    reference's own aggregation stage, at the launch contents of the four arguments it reads. -/
abbrev agg (c : Dev nD) : FVec F S100000x128 .f32 :=
  Cert.ReferenceIdeal.Read.val_main_v38 (F := F) (m ((c : Thread nD τ).loc main_arg0)) (m ((c : Thread nD τ).loc main_arg1))
    (m ((c : Thread nD τ).loc main_arg2)) (m ((c : Thread nD τ).loc main_arg3))

set_option maxRecDepth 8192 in
set_option maxHeartbeats 2000000 in
/-- The first operand is the aggregate, narrowed: the host operations before the launch are the reference's, one for one. -/
theorem agg_operand (c : Dev nD) :
    (V m c main_v39 : FVec F S100000x128 .bf16) = truncf .bf16 (agg m c) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The second operand is the weight matrix, narrowed. -/
theorem weight_operand (c : Dev nD) :
    (V m c main_v40 : FVec F S128x128 .bf16) = truncf .bf16 (m ((c : Thread nD τ).loc main_arg4) : FVec F S128x128 .f32) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The third operand is the bias as one row. -/
theorem bias_operand (c : Dev nD) :
    (V m c main_v41 : FVec F S1x128 .f32) = shapeCast S1x128 (m ((c : Thread nD τ).loc main_arg5) : FVec F S128 .f32) shapeCasts_S128_S1x128 := by
  dsimp only [Gen.V]
  simp only [Gen.hostOps0, Gen.hostOps0_1, Gen.hostOps0_2, List.flatten_cons, List.flatten_nil, List.append_nil, List.cons_append, List.nil_append]
  after_results_simp <;> rfl

end AnyArithmetic

end Cert.KernelIdeal.Dense

end
-- ==== Proof.Payload.lean ====
/-
  One block of the dense layer, entry by entry.

  The kernel body computes, for a block `a` of 10000 rows of the aggregated features, the weight matrix `w` and the bias
  row `b`, the matrix `a · w + b` (the bias broadcast down the rows). Over the extended reals the block product into a zero
  accumulator is the plain sum `∑ k, a[p, k] · w[k, q]`, so entry `(p, q)` of the body's stored value is
  `(∑ k, a[p, k] · w[k, q]) + b[0, q]`.

  Laid out over the ten blocks of the 100000 rows (`blockwise`: row `r` is row `r % 10000` of block `r / 10000`) this is
  entry `(r, q)` of `A · w + b` for the whole first operand `A`, since `10000 · (r / 10000) + r % 10000 = r`.
-/
import proofs.«142650_j36275293782355_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.TcCoe Idealize.ShloMosaic.ValueIdx

/-! ## The result, block by block, in whatever arithmetic -/

section AnyArithmetic

variable {F : FTy → Type} [FloatOps F]

/-- Block `b` of the first operand: its rows `10000·b … 10000·b + 9999`. -/
def rowsOf (A : Vec F S100000x128 .bf16) (b : Fin 10) : Vec F S10000x128 .bf16 :=
  fun y => A (ix2 (⟨b.val * 10000 + (y 0).val, by have := b.isLt; have := idx2_lt0 y; omega⟩ : Fin 100000) (⟨(y 1).val, idx2_lt1 y⟩ : Fin 128))

/-- The whole result as the kernel makes it: row `r` is row `r % 10000` of what the body stores for block `r / 10000`
    of the first operand, the whole second operand and the third. -/
def blockwise (A : Vec F S100000x128 .bf16) (W : Vec F S128x128 .bf16) (B : Vec F S1x128 .f32) : S100000x128.Idx → Elt F .f32 :=
  fun i => k0_pay1 (F := F) (rowsOf A (⟨(i 0).val / 10000, by have := idx2_lt0 i; omega⟩ : Fin 10)) W B
    (ix2 (⟨(i 0).val % 10000, Nat.mod_lt _ (by decide)⟩ : Fin 10000) (⟨(i 1).val, idx2_lt1 i⟩ : Fin 128))

end AnyArithmetic

/-! ## Over the extended reals -/

/-! ## The operand indices of the block product: rows × contraction, contraction × columns -/

theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into the zero accumulator, at entry `(p, q)`: the sum over the 128 contracted positions. -/
theorem matmul_blk_apply (a : FVec Ideal S10000x128 .bf16) (w : FVec Ideal S128x128 .bf16) (p : Fin 10000) (q : Fin 128) :
    matmul (F := Ideal) dot_S10000x128_S128x128_S10000x128_1_0_0_1_n_n none a w (constant (F := Ideal) S10000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun d => Fin.ext (by
    match d with
    | ⟨0, _⟩ => exact lhs_blk_0 _ _
    | ⟨1, _⟩ => exact (lhs_blk_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun d => Fin.ext (by
    match d with
    | ⟨0, _⟩ => exact (rhs_blk_0 _ _).trans hk
    | ⟨1, _⟩ => exact rhs_blk_1 _ _)
  rw [el, er]

/-- The bias row broadcast down the 10000 rows, at entry `(p, q)`: the row's entry `q`. -/
theorem bias_rows_apply (b : FVec Ideal S1x128 .f32) (p : Fin 10000) (q : Fin 128) :
    broadcastTo S10000x128 b broadcasts_S1x128_S10000x128 (ix2 p q) = b (ix2 (0 : Fin 1) q) :=
  broadcastTo_apply b broadcasts_S1x128_S10000x128 (ix2 p q) (ix2 (0 : Fin 1) q) (fun d => match d with
    | ⟨0, _⟩ => by show 0 = if (1 : Nat) = 1 then 0 else _; rw [if_pos rfl]
    | ⟨1, _⟩ => by show q.val = if (128 : Nat) = 1 then 0 else q.val; rw [if_neg (by decide)])

/-- Entry `(p, q)` of what the body stores: row `p` of the block against column `q` of the weights, plus the bias. -/
theorem pay_apply (a : Vec Ideal S10000x128 .bf16) (w : Vec Ideal S128x128 .bf16) (b : Vec Ideal S1x128 .f32) (p : Fin 10000) (q : Fin 128) :
    k0_pay1 (F := Ideal) a w b (ix2 p q) = (∑ k : Fin 128, a (ix2 p k) * w (ix2 k q)) + b (ix2 (0 : Fin 1) q) := by
  unfold k0_pay1
  rw [shapeCast_self, shapeCast_self, shapeCast_self]
  show (matmul (F := Ideal) dot_S10000x128_S128x128_S10000x128_1_0_0_1_n_n none a w (constant (F := Ideal) S10000x128 .f32 0x00000000#32)) (ix2 p q)
      + (broadcastTo S10000x128 b broadcasts_S1x128_S10000x128) (ix2 p q) = _
  rw [matmul_blk_apply, bias_rows_apply]

/-- Entry `(r, q)` of the blockwise result: the blocks forgotten, it is row `r` of the first operand against column `q`
    of the second, plus the third's entry `q`. -/
theorem blockwise_apply (A : Vec Ideal S100000x128 .bf16) (W : Vec Ideal S128x128 .bf16) (B : Vec Ideal S1x128 .f32) (i : S100000x128.Idx) :
    blockwise (F := Ideal) A W B i
      = (∑ k : Fin 128, A (ix2 (⟨(i 0).val, idx2_lt0 i⟩ : Fin 100000) k) * W (ix2 k (⟨(i 1).val, idx2_lt1 i⟩ : Fin 128)))
        + B (ix2 (0 : Fin 1) (⟨(i 1).val, idx2_lt1 i⟩ : Fin 128)) := by
  unfold blockwise
  rw [pay_apply]
  refine congrArg (· + _) (Finset.sum_congr rfl fun k _ => ?_)
  refine congrArg (· * _) ?_
  unfold rowsOf
  refine congrArg A (funext fun a => Fin.ext ?_)
  have hi := idx2_lt0 i
  match a with
  | ⟨0, _⟩ => show (i 0).val / 10000 * 10000 + (i 0).val % 10000 = (i 0).val; omega
  | ⟨1, _⟩ => rfl

end Cert.KernelIdeal.Dense

end
-- ==== Proof.Blocks.lean ====
/-
  From the blocks to the whole result.

  The grid has ten points; point `t` reads rows `10000·t … 10000·t + 9999` of the first operand, the whole second operand
  and the third, and writes the same rows of the result. So every row of the result is written once, by the point that
  holds it, and the result array ends as the blockwise function of the three operands as the kernel finds them. Nothing
  here depends on the arithmetic: it is about which entries a point reads and writes.
-/
import proofs.«142650_j36275293782355_1_alg».proof.Proof.Gen.KernelIdeal.Value
import proofs.«142650_j36275293782355_1_alg».proof.Proof.Payload

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The index maps over the grid: the first operand's and the result's blocks move down the rows with the point, the
    second and third operands stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := Nat.lt_of_lt_of_eq t.isLt N_0

/-- A grid point as a block number. -/
def blockOf (t : Fin cfg0.N) : Fin 10 := ⟨t.val, point_lt t⟩

/-- Point `t`'s block of the first operand is its rows `10000·t … 10000·t + 9999`. -/
theorem first_blk (c : Dev nD) (t : Fin cfg0.N) :
    (iblk m c 0 t : Vec F S10000x128 .bf16) = rowsOf (V m c main_v39) (blockOf t) := by
  funext y
  show V m c main_v39 (((cfg0.win 0).blk t).view.emb y) = V m c main_v39 _
  refine congrArg (V m c main_v39) (funext fun a => Fin.ext ?_)
  obtain ⟨e0, e1, -⟩ := idx_facts t
  match a with
  | ⟨0, _⟩ => show win0_0.index t (0 : Fin 2) * 10000 + 1 * (y 0).val = t.val * 10000 + (y 0).val; omega
  | ⟨1, _⟩ => show win0_0.index t (1 : Fin 2) * 128 + 1 * (y 1).val = (y 1).val; omega

/-- Every point's block of the second operand is the whole operand. -/
theorem second_blk (c : Dev nD) (t : Fin cfg0.N) :
    (iblk m c 1 t : Vec F S128x128 .bf16) = V m c main_v40 := by
  funext y
  show V m c main_v40 (((cfg0.win 1).blk t).view.emb y) = V m c main_v40 y
  refine congrArg (V m c main_v40) (funext fun a => Fin.ext ?_)
  obtain ⟨-, -, e2, e3, -⟩ := idx_facts t
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Every point's block of the third operand is the whole operand. -/
theorem third_blk (c : Dev nD) (t : Fin cfg0.N) :
    (iblk m c 2 t : Vec F S1x128 .f32) = V m c main_v41 := by
  funext y
  show V m c main_v41 (((cfg0.win 2).blk t).view.emb y) = V m c main_v41 y
  refine congrArg (V m c main_v41) (funext fun a => Fin.ext ?_)
  obtain ⟨-, -, -, -, e4, e5, -⟩ := idx_facts t
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the blockwise function of the three operands. -/
theorem flushed_eq (c : Dev nD) (t : Fin cfg0.N) :
    (dats m 0 c).flushed 3 t = ((cfg0.win 3).blk t).view.read (Elt F)
      (blockwise (V m c main_v39) (V m c main_v40) (V m c main_v41)) := by
  rw [Cert.KernelIdeal.Value.flushed3]
  unfold out0_3
  rw [View.canon_unit_zero hz]
  simp only [View.ld_unit_zero (S := S10000x128) hz, View.ld_unit_zero (S := S128x128) hz, View.ld_unit_zero (S := S1x128) hz]
  rw [first_blk, second_blk, third_blk]
  funext j
  obtain ⟨p, q, rfl⟩ : ∃ (p : Fin 10000) (q : Fin 128), j = ix2 p q := ⟨j 0, j 1, eq_ix2 j⟩
  show k0_pay1 (F := F) (rowsOf (V m c main_v39) (blockOf t)) (V m c main_v40) (V m c main_v41) (ix2 p q)
    = blockwise (V m c main_v39) (V m c main_v40) (V m c main_v41) (((cfg0.win 3).blk t).view.emb (ix2 p q))
  obtain ⟨-, -, -, -, -, -, e6, e7⟩ := idx_facts t
  have hp := p.isLt
  have ht := point_lt t
  have hrow : ((((cfg0.win 3).blk t).view.emb (ix2 p q)) 0).val = t.val * 10000 + p.val := by
    show win0_3.index t (0 : Fin 2) * 10000 + 1 * p.val = t.val * 10000 + p.val; omega
  have hcol : ((((cfg0.win 3).blk t).view.emb (ix2 p q)) 1).val = q.val := by
    show win0_3.index t (1 : Fin 2) * 128 + 1 * q.val = q.val; omega
  unfold blockwise
  have hb : (⟨((((cfg0.win 3).blk t).view.emb (ix2 p q)) 0).val / 10000, by have := idx2_lt0 (((cfg0.win 3).blk t).view.emb (ix2 p q)); omega⟩ : Fin 10) = blockOf t :=
    Fin.ext (by show ((((cfg0.win 3).blk t).view.emb (ix2 p q)) 0).val / 10000 = t.val; omega)
  have hp' : (⟨((((cfg0.win 3).blk t).view.emb (ix2 p q)) 0).val % 10000, Nat.mod_lt _ (by decide)⟩ : Fin 10000) = p :=
    Fin.ext (by show ((((cfg0.win 3).blk t).view.emb (ix2 p q)) 0).val % 10000 = p.val; omega)
  have hq' : (⟨((((cfg0.win 3).blk t).view.emb (ix2 p q)) 1).val, idx2_lt1 (((cfg0.win 3).blk t).view.emb (ix2 p q))⟩ : Fin 128) = q :=
    Fin.ext hcol
  rw [hb, hp', hq']

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v42).slice (win0_3.rect t)).set ↔ _
  rw [View.set_slice_whole, Rect.mem_set_unit]
  exact Iff.rfl

/-- Every entry of the result is in some point's block: row `r` in point `r / 10000`'s. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 10000 < cfg0.N := Nat.lt_of_lt_of_eq (by omega : (i 0).val / 10000 < 10) N_0.symm
  refine ⟨⟨(i 0).val / 10000, hlt⟩, flush0_3 _, ?_⟩
  rw [mem_blk]
  obtain ⟨-, -, -, -, -, -, e6, e7⟩ := idx_facts ⟨(i 0).val / 10000, hlt⟩
  have e6' : win0_3.index ⟨(i 0).val / 10000, hlt⟩ (0 : Fin 2) = (i 0).val / 10000 := e6
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    omega
  | ⟨1, _⟩ =>
    show win0_3.index ⟨(i 0).val / 10000, hlt⟩ (1 : Fin 2) * 128 ≤ (i 1).val ∧ (i 1).val < win0_3.index ⟨(i 0).val / 10000, hlt⟩ (1 : Fin 2) * 128 + 128
    omega

/-- The result array after the run: the blockwise function of the three operands. -/
theorem final (c : Dev nD) :
    (dats m 0 c).arrAt 3 cfg0.N = blockwise (V m c main_v39) (V m c main_v40) (V m c main_v41) :=
  (dats m 0 c).arrAt_eq_of_cover 3 _ (fun t _ => flushed_eq m c t) cover

/-- The kernel's run with the result named: the blockwise function of the three operands; the arguments unchanged. -/
theorem run : θ_run defs (onTc (τ := τ) (main (F := F))) ⟨m, fun _ => 0, ρ⟩ fun r => ∀ c : Dev nD,
      r.2.mem ((c : Thread nD τ).loc main_v42) = blockwise (V m c main_v39) (V m c main_v40) (V m c main_v41)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Dense

end
-- ==== Proof.RefValue.lean ====
/-
  The reference's result, entry by entry.

  The reference ends with `agg @ weight + bias`: over the extended reals entry `(r, q)` is the sum over the 128
  contracted positions of `agg[r, k] · weight[k, q]`, plus `bias[q]` (the bias viewed as a row and repeated down the rows).
-/
import proofs.«142650_j36275293782355_1_alg».proof.Proof.Gen.ReferenceIdeal.Read
import Idealize.ShloMosaic.Lib.ValueIdx

noncomputable section

namespace Cert.ReferenceIdeal.Dense

open Cert.ReferenceIdeal Cert.ReferenceIdeal.Read Idealize.ShloMosaic Idealize.ShloMosaic.TcCoe Idealize.ShloMosaic.ValueIdx

/-- The left factor's index in the contraction: row `r`, position `k`. -/
theorem left_index (i : S100000x128.Idx) (k : Fin 128) :
    lidx_main_v39 i k = ix2 (⟨(i 0).val, (i 0).isLt⟩ : Fin 100000) k :=
  funext fun a => Fin.ext (by match a with | ⟨0, _⟩ => rfl | ⟨1, _⟩ => rfl)

/-- The right factor's index in the contraction: position `k`, column `q`. -/
theorem right_index (i : S100000x128.Idx) (k : Fin 128) :
    ridx_main_v39 i k = ix2 k (⟨(i 1).val, (i 1).isLt⟩ : Fin 128) :=
  funext fun a => Fin.ext (by match a with | ⟨0, _⟩ => rfl | ⟨1, _⟩ => rfl)

/-- The bias's index under the two broadcasts: column `q`. -/
theorem bias_index (i : S100000x128.Idx) :
    idx_main_v40 (idx_main_v41 i) = ix1 (⟨(i 1).val, (i 1).isLt⟩ : Fin 128) :=
  funext fun a => Fin.ext (by match a with | ⟨0, _⟩ => rfl)

/-- Entry `i = (r, q)` of the reference's result. -/
theorem result_apply (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (i : S100000x128.Idx) :
    val_main_v42 (F := Ideal) x0 x1 x2 x3 x4 x5 i
      = (∑ k : Fin 128, val_main_v38 (F := Ideal) x0 x1 x2 x3 (ix2 (⟨(i 0).val, (i 0).isLt⟩ : Fin 100000) k) * x4 (ix2 k (⟨(i 1).val, (i 1).isLt⟩ : Fin 128)))
        + x5 (ix1 (⟨(i 1).val, (i 1).isLt⟩ : Fin 128)) := by
  rw [val_main_v42_apply, val_main_v39_apply, val_main_v41_apply, val_main_v40_apply, bias_index]
  simp only [left_index, right_index]
  rfl

end Cert.ReferenceIdeal.Dense

end
-- ==== Proof.Bridge.lean ====
/-
  The two dense layers are one function.

  Given any aggregate `a`, weights `w` and bias `b` over the extended reals, the reference's `a @ w + b` and the kernel's
  blockwise result of the narrowed `a`, the narrowed `w` and `b` viewed as a row agree entry by entry: both are
  `(∑ k, a[r, k] · w[k, q]) + b[q]`. Narrowing to bf16 is the identity there, and entry `(0, q)` of the 1 × 128 view of
  `b` is `b[q]`.
-/
import proofs.«142650_j36275293782355_1_alg».proof.Proof.Payload
import proofs.«142650_j36275293782355_1_alg».proof.Proof.RefValue
import Idealize.ShloMosaic.Lib.Pipeline.Value
import Idealize.ShloMosaic.Lib.ValueIdx

noncomputable section

namespace Cert.ReferenceIdeal.Dense

open Cert.ReferenceIdeal Cert.ReferenceIdeal.Read Idealize.ShloMosaic Idealize.ShloMosaic.TcCoe Idealize.ShloMosaic.ValueIdx

/-- The reference's result is the kernel's blockwise function of the narrowed aggregate, the narrowed weights and the
    bias row, for any arguments. -/
theorem result_eq_blockwise (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (hn : FTy.bits .bf16 < FTy.bits .f32) (hs : S128.ShapeCasts S1x128) :
    val_main_v42 (F := Ideal) x0 x1 x2 x3 x4 x5
      = Cert.KernelIdeal.Dense.blockwise (F := Ideal) (truncf (F := Ideal) .bf16 (val_main_v38 (F := Ideal) x0 x1 x2 x3) hn)
          (truncf (F := Ideal) .bf16 x4 hn) (shapeCast S1x128 x5 hs) := by
  funext i
  rw [result_apply, Cert.KernelIdeal.Dense.blockwise_apply]
  generalize val_main_v38 (F := Ideal) x0 x1 x2 x3 = a
  rw [shapeCast_apply (s := S128) (t := S1x128) x5 hs (ix2 (0 : Fin 1) (⟨(i 1).val, idx2_lt1 i⟩ : Fin 128)) (ix1 (⟨(i 1).val, idx2_lt1 i⟩ : Fin 128)) (by
    rw [Shape.rowMajor_val_two]; rfl)]
  rfl

end Cert.ReferenceIdeal.Dense

end
-- ==== Proof.lean ====
/-
  The graph-convolution layer: degree-normalised aggregation of neighbour features, then a dense layer.

  Both programs first compute the same aggregate `agg` (degrees by a scatter-add of the edge values, their inverse
  square roots gathered at each edge's row and column, every neighbour's feature row scaled by its edge weight and
  scatter-added to the destination row): the same host operations in the same order. They differ only in the dense
  layer `agg · W + b`:

  * the reference takes one matrix product of the whole aggregate and adds the bias, repeated down the rows;
  * the kernel narrows the aggregate and the weights to bf16 (the identity over the extended reals), cuts the
    100000 rows into ten blocks of 10000, and for each block takes the block's product with the whole weight matrix
    into a zero accumulator and adds the bias row.

  Entry `(r, q)` of either result is `(∑ k, agg[r, k] · W[k, q]) + b[q]`: the kernel's because row `r` lies in exactly
  one block (Proof/Payload.lean for one block and for the blocks forgotten, Proof/Blocks.lean for the ten points
  together, Proof/HostPrefix.lean for what the three operands hold at the launch), the reference's by reading its last
  four operations at an index (Proof/RefValue.lean); Proof/Bridge.lean sets the two side by side.
  No law of arithmetic beyond `0 + x = x` is used, so the inputs' finiteness is never opened.
-/
import proofs.«142650_j36275293782355_1_alg».proof.Defs
import proofs.«142650_j36275293782355_1_alg».proof.Proof.Gen.Kernel
import proofs.«142650_j36275293782355_1_alg».proof.Proof.Gen.Kernel.Skeleton
import proofs.«142650_j36275293782355_1_alg».proof.Proof.Gen.Kernel.Launch
import proofs.«142650_j36275293782355_1_alg».proof.Proof.Gen.Kernel.Points
import proofs.«142650_j36275293782355_1_alg».proof.Proof.Gen.Kernel.Frame
import proofs.«142650_j36275293782355_1_alg».proof.Proof.Gen.KernelIdeal
import proofs.«142650_j36275293782355_1_alg».proof.Proof.Gen.KernelIdeal.Skeleton
import proofs.«142650_j36275293782355_1_alg».proof.Proof.Gen.KernelIdeal.Launch
import proofs.«142650_j36275293782355_1_alg».proof.Proof.Gen.KernelIdeal.Points
import proofs.«142650_j36275293782355_1_alg».proof.Proof.Gen.KernelIdeal.Frame
import proofs.«142650_j36275293782355_1_alg».proof.Proof.Gen.ReferenceIdeal
import proofs.«142650_j36275293782355_1_alg».proof.Proof.Gen.Pre_finite_inputs
import proofs.«142650_j36275293782355_1_alg».proof.Proof.Gen.KernelIdeal.Value
import proofs.«142650_j36275293782355_1_alg».proof.Proof.Gen.ReferenceIdeal.Run
import proofs.«142650_j36275293782355_1_alg».proof.Proof.Gen.ReferenceIdeal.Read
import proofs.«142650_j36275293782355_1_alg».proof.Proof.HostPrefix
import proofs.«142650_j36275293782355_1_alg».proof.Proof.Blocks
import proofs.«142650_j36275293782355_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dense layer of the same aggregate: entry `(r, q)` is `(∑ k, agg[r, k] · W[k, q]) + b[q]`
    on either side. -/
theorem algebraic : Cert.algebraic_KernelIdeal_ReferenceIdeal := by
  intro m ρ m' ρ' _ hagree
  refine ⟨_, Cert.KernelIdeal.Dense.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v42_eq, h0, h1, h2, h3, h4, h5,
    Cert.KernelIdeal.Dense.agg_operand, Cert.KernelIdeal.Dense.weight_operand, Cert.KernelIdeal.Dense.bias_operand]
  exact Cert.ReferenceIdeal.Dense.result_eq_blockwise _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
